-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v8)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v8) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v23) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x8192x3 : Shape := ⟨3, ![4, 8192, 3]⟩
abbrev S_ : Shape := ⟨0, ![]⟩

class Facts : Prop where
  bcast_S_S4x8192x3 : S_.BroadcastsInDim S4x8192x3 (![] : Fin 0 → Fin S4x8192x3.rank)
  reducesTo_S4x8192x3_S_d0_1_2 : S4x8192x3.ReducesTo [0, 1, 2] S_
  h_S_ : 0 < S_.numel

variable [Facts]

def fn {F : FTy → Type} [FloatOps F] (main_arg0 : FVec F S4x8192x3 .f32) (main_arg1 : FVec F S4x8192x3 .f32) : IVec S_ 1 :=
  let main_v0 : FVec F S4x8192x3 .f32 := Host.absf main_arg0
  let main_cst : FVec F S_ .f32 := constant S_ .f32 0x7F800000#32
  let main_v1 : FVec F S4x8192x3 .f32 := broadcastInDim S4x8192x3 ![] bcast_S_S4x8192x3 main_cst
  let main_v2 : IVec S4x8192x3 1 := cmpf .olt main_v0 main_v1
  let main_c : IVec S_ 1 := constantI S_ 1 1#1
  let main_v3 : IVec S_ 1 := (fun x v => Host.reduce IntOp.andi x v reducesTo_S4x8192x3_S_d0_1_2 h_S_) main_v2 main_c
  let main_v4 : FVec F S4x8192x3 .f32 := Host.absf main_arg1
  let main_cst_0 : FVec F S_ .f32 := constant S_ .f32 0x7F800000#32
  let main_v5 : FVec F S4x8192x3 .f32 := broadcastInDim S4x8192x3 ![] bcast_S_S4x8192x3 main_cst_0
  let main_v6 : IVec S4x8192x3 1 := cmpf .olt main_v4 main_v5
  let main_c_1 : IVec S_ 1 := constantI S_ 1 1#1
  let main_v7 : IVec S_ 1 := (fun x v => Host.reduce IntOp.andi x v reducesTo_S4x8192x3_S_d0_1_2 h_S_) main_v6 main_c_1
  let main_v8 : IVec S_ 1 := andi main_v3 main_v7
  main_v8
-- ==== Kernel.lean ====
abbrev S4x8192x3 : Shape := ⟨3, ![4, 8192, 3]⟩
abbrev S4x8192 : Shape := ⟨2, ![4, 8192]⟩
abbrev S4x512x3 : Shape := ⟨3, ![4, 512, 3]⟩
abbrev S4x512 : Shape := ⟨2, ![4, 512]⟩
abbrev S4x512x512 : Shape := ⟨3, ![4, 512, 512]⟩
abbrev S4x512x1 : Shape := ⟨3, ![4, 512, 1]⟩
abbrev S4x1x512 : Shape := ⟨3, ![4, 1, 512]⟩
abbrev S_ : Shape := ⟨0, ![]⟩
abbrev S4 : Shape := ⟨1, ![4]⟩

abbrev nBuf : Space → Nat
  | .hbm => 15
  | .vmem => 12
  | .smem => 0
  | _ => 0

abbrev bufTy : (tb : Table) → Fin (tcTables nBuf tb) → BufTy
  | .hbm, ⟨0, _⟩ => ⟨S4x8192x3, .f32⟩
  | .hbm, ⟨1, _⟩ => ⟨S4x8192x3, .f32⟩
  | .hbm, ⟨2, _⟩ => ⟨S4x8192, .f32⟩
  | .hbm, ⟨3, _⟩ => ⟨S4x8192, .f32⟩
  | .hbm, ⟨4, _⟩ => ⟨S_, .f32⟩
  | .hbm, ⟨5, _⟩ => ⟨S4, .f32⟩
  | .hbm, ⟨6, _⟩ => ⟨S_, .f32⟩
  | .hbm, ⟨7, _⟩ => ⟨S4, .f32⟩
  | .hbm, ⟨8, _⟩ => ⟨S4, .f32⟩
  | .hbm, ⟨9, _⟩ => ⟨S_, .f32⟩
  | .hbm, ⟨10, _⟩ => ⟨S4, .f32⟩
  | .hbm, ⟨11, _⟩ => ⟨S_, .f32⟩
  | .hbm, ⟨12, _⟩ => ⟨S4, .f32⟩
  | .hbm, ⟨13, _⟩ => ⟨S4, .f32⟩
  | .hbm, ⟨14, _⟩ => ⟨S4, .f32⟩
  | .local _ .vmem, ⟨0, _⟩ => ⟨S4x512x3, .f32⟩
  | .local _ .vmem, ⟨1, _⟩ => ⟨S4x512x3, .f32⟩
  | .local _ .vmem, ⟨2, _⟩ => ⟨S4x512x3, .f32⟩
  | .local _ .vmem, ⟨3, _⟩ => ⟨S4x512x3, .f32⟩
  | .local _ .vmem, ⟨4, _⟩ => ⟨S4x512, .f32⟩
  | .local _ .vmem, ⟨5, _⟩ => ⟨S4x512, .f32⟩
  | .local _ .vmem, ⟨6, _⟩ => ⟨S4x512x3, .f32⟩
  | .local _ .vmem, ⟨7, _⟩ => ⟨S4x512x3, .f32⟩
  | .local _ .vmem, ⟨8, _⟩ => ⟨S4x512x3, .f32⟩
  | .local _ .vmem, ⟨9, _⟩ => ⟨S4x512x3, .f32⟩
  | .local _ .vmem, ⟨10, _⟩ => ⟨S4x512, .f32⟩
  | .local _ .vmem, ⟨11, _⟩ => ⟨S4x512, .f32⟩
  | _, _ => ⟨S4x8192x3, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_cst_2 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg1_1 : Ref sig .tc := ⟨.vmem, 9, rfl⟩
abbrev cc1_stg2_0 : Ref sig .tc := ⟨.vmem, 10, rfl⟩
abbrev cc1_stg2_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem2_1 : DmaSem sig := 11

abbrev nD : Nat := 1
abbrev τ : Topo := Topo.v7x

variable {F : FTy → Type} [FloatOps F]

abbrev grid0 : Pipeline.Grid := ⟨2, ![16, 16], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg1.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 2 → Memref sig .tc .vmem S4x512x3 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S4x512x3 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S4x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev grid1 : Pipeline.Grid := ⟨2, ![16, 16], ![false, false]⟩

def cc1_transform_0 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg0.toNat, c0_i32_0.toNat]

def cc1_transform_1 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg1.toNat, c0_i32_0.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage1_0 : Fin 2 → Memref sig .tc .vmem S4x512x3 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false]

abbrev stage1_1 : Fin 2 → Memref sig .tc .vmem S4x512x3 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true]

abbrev stage1_2 : Fin 2 → Memref sig .tc .vmem S4x512 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, false]

class Facts₀ : Prop where
  inb_S4x512_S4x512_0_0 : ∀ a, (![0, 0] : Fin 2 → Nat) a + S4x512.size a ≤ S4x512.size a
  h_S4x512 : 0 < S4x512.numel
  inb_S4x512x3_S4x512x3_0_0_0 : ∀ a, (![0, 0, 0] : Fin 3 → Nat) a + S4x512x3.size a ≤ S4x512x3.size a
  h_S4x512x3 : 0 < S4x512x3.numel
  reduces_S4x512x3_S4x512 : S4x512x3.Reduces [2] S4x512
  bitsLt_bf16_f32 : FTy.bits .bf16 < FTy.bits .f32
  shapeCasts_S4x512_S4x512x1 : S4x512.ShapeCasts S4x512x1
  shapeCasts_S4x512_S4x1x512 : S4x512.ShapeCasts S4x1x512
  broadcasts_S4x512x1_S4x512x512 : S4x512x1.Broadcasts S4x512x512
  broadcasts_S4x1x512_S4x512x512 : S4x1x512.Broadcasts S4x512x512
  reduces_S4x512x512_S4x512 : S4x512x512.Reduces [2] S4x512
  shapeCasts_S4x512_S4x512 : S4x512.ShapeCasts S4x512
  reducesTo_S4x8192_S4_d1 : S4x8192.ReducesTo [1] S4
  h_S_ : 0 < S_.numel
  bcast_S_S4 : S_.BroadcastsInDim S4 (![] : Fin 0 → Fin S4.rank)
  dot_S4x512x3_S4x512x3_S4x512x512_2_2_1_1_0_0_wf : DotDims.WF S4x512x3 S4x512x3 S4x512x512 [2] [2] [1] [1] [0] [0]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4x512x3.size a ≤ S4x8192x3.size a
  hwx0_0 : ∀ i : grid0.Coords, EltTy.bits .f32 = 32 ∨ (Rect.block (s := S4x8192x3) S4x512x3.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S4x512x3.size a ≤ S4x8192x3.size a
  hwx0_1 : ∀ i : grid0.Coords, EltTy.bits .f32 = 32 ∨ (Rect.block (s := S4x8192x3) S4x512x3.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S4x512.size a ≤ S4x8192.size a
  hwx0_2 : ∀ i : grid0.Coords, EltTy.bits .f32 = 32 ∨ (Rect.block (s := S4x8192) S4x512.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S4x512x3.size a ≤ S4x8192x3.size a
  hwx1_0 : ∀ i : grid1.Coords, EltTy.bits .f32 = 32 ∨ (Rect.block (s := S4x8192x3) S4x512x3.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S4x512x3.size a ≤ S4x8192x3.size a
  hwx1_1 : ∀ i : grid1.Coords, EltTy.bits .f32 = 32 ∨ (Rect.block (s := S4x8192x3) S4x512x3.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S4x512.size a ≤ S4x8192.size a
  hwx1_2 : ∀ i : grid1.Coords, EltTy.bits .f32 = 32 ∨ (Rect.block (s := S4x8192) S4x512.size (cc1_transform_2 i) (hinb1_2 i)).WholeWords (EltTy.packing .f32)

variable [Facts₀]

def dot_S4x512x3_S4x512x3_S4x512x512_2_2_1_1_0_0 : DotDims S4x512x3 S4x512x3 S4x512x512 where
  lhsContracting := [2]
  rhsContracting := [2]
  lhsNonContracting := [1]
  rhsNonContracting := [1]
  lhsBatch := [0]
  rhsBatch := [0]
  wf := dot_S4x512x3_S4x512x3_S4x512x512_2_2_1_1_0_0_wf

abbrev win0_0 : Pipeline.Window sig grid0 :=
  Pipeline.Window.ofSpec (Memref.whole main_arg0) S4x512x3.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S4x512x3.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S4x512.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_arg1) S4x512x3.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg0) S4x512x3.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v1) S4x512.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

class Facts : Prop extends Facts₀ where

variable [Facts]
-- ==== ReferenceIdeal.lean ====
abbrev S4x8192x3 : Shape := ⟨3, ![4, 8192, 3]⟩
abbrev S_ : Shape := ⟨0, ![]⟩
abbrev S4x8192 : Shape := ⟨2, ![4, 8192]⟩
abbrev S4x8192x1 : Shape := ⟨3, ![4, 8192, 1]⟩
abbrev S4x1x8192 : Shape := ⟨3, ![4, 1, 8192]⟩
abbrev S4x8192x8192 : Shape := ⟨3, ![4, 8192, 8192]⟩
abbrev S4 : Shape := ⟨1, ![4]⟩

abbrev nBuf : Space → Nat
  | .hbm => 36
  | .vmem => 0
  | .smem => 0
  | _ => 0

abbrev bufTy : (tb : Table) → Fin (tcTables nBuf tb) → BufTy
  | .hbm, ⟨0, _⟩ => ⟨S4x8192x3, .f32⟩
  | .hbm, ⟨1, _⟩ => ⟨S4x8192x3, .f32⟩
  | .hbm, ⟨2, _⟩ => ⟨S4x8192x3, .f32⟩
  | .hbm, ⟨3, _⟩ => ⟨S_, .f32⟩
  | .hbm, ⟨4, _⟩ => ⟨S4x8192, .f32⟩
  | .hbm, ⟨5, _⟩ => ⟨S4x8192x3, .f32⟩
  | .hbm, ⟨6, _⟩ => ⟨S_, .f32⟩
  | .hbm, ⟨7, _⟩ => ⟨S4x8192, .f32⟩
  | .hbm, ⟨8, _⟩ => ⟨S4x8192x1, .f32⟩
  | .hbm, ⟨9, _⟩ => ⟨S4x1x8192, .f32⟩
  | .hbm, ⟨10, _⟩ => ⟨S4x8192x8192, .f32⟩
  | .hbm, ⟨11, _⟩ => ⟨S4x8192x8192, .f32⟩
  | .hbm, ⟨12, _⟩ => ⟨S4x8192x8192, .f32⟩
  | .hbm, ⟨13, _⟩ => ⟨S4x8192x8192, .f32⟩
  | .hbm, ⟨14, _⟩ => ⟨S_, .f32⟩
  | .hbm, ⟨15, _⟩ => ⟨S4x8192x8192, .f32⟩
  | .hbm, ⟨16, _⟩ => ⟨S4x8192x8192, .f32⟩
  | .hbm, ⟨17, _⟩ => ⟨S4x8192x8192, .f32⟩
  | .hbm, ⟨18, _⟩ => ⟨S_, .f32⟩
  | .hbm, ⟨19, _⟩ => ⟨S4x8192x8192, .f32⟩
  | .hbm, ⟨20, _⟩ => ⟨S4x8192x8192, .f32⟩
  | .hbm, ⟨21, _⟩ => ⟨S_, .f32⟩
  | .hbm, ⟨22, _⟩ => ⟨S4x8192, .f32⟩
  | .hbm, ⟨23, _⟩ => ⟨S_, .f32⟩
  | .hbm, ⟨24, _⟩ => ⟨S4, .f32⟩
  | .hbm, ⟨25, _⟩ => ⟨S_, .f32⟩
  | .hbm, ⟨26, _⟩ => ⟨S4, .f32⟩
  | .hbm, ⟨27, _⟩ => ⟨S4, .f32⟩
  | .hbm, ⟨28, _⟩ => ⟨S_, .f32⟩
  | .hbm, ⟨29, _⟩ => ⟨S4x8192, .f32⟩
  | .hbm, ⟨30, _⟩ => ⟨S_, .f32⟩
  | .hbm, ⟨31, _⟩ => ⟨S4, .f32⟩
  | .hbm, ⟨32, _⟩ => ⟨S_, .f32⟩
  | .hbm, ⟨33, _⟩ => ⟨S4, .f32⟩
  | .hbm, ⟨34, _⟩ => ⟨S4, .f32⟩
  | .hbm, ⟨35, _⟩ => ⟨S4, .f32⟩
  | _, _ => ⟨S4x8192x3, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_cst_1 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_cst_2 : Ref sig .tc := ⟨.hbm, 18, rfl⟩
abbrev main_v13 : Ref sig .tc := ⟨.hbm, 19, rfl⟩
abbrev main_v14 : Ref sig .tc := ⟨.hbm, 20, rfl⟩
abbrev main_cst_3 : Ref sig .tc := ⟨.hbm, 21, rfl⟩
abbrev main_v15 : Ref sig .tc := ⟨.hbm, 22, rfl⟩
abbrev main_cst_4 : Ref sig .tc := ⟨.hbm, 23, rfl⟩
abbrev main_v16 : Ref sig .tc := ⟨.hbm, 24, rfl⟩
abbrev main_cst_5 : Ref sig .tc := ⟨.hbm, 25, rfl⟩
abbrev main_v17 : Ref sig .tc := ⟨.hbm, 26, rfl⟩
abbrev main_v18 : Ref sig .tc := ⟨.hbm, 27, rfl⟩
abbrev main_cst_6 : Ref sig .tc := ⟨.hbm, 28, rfl⟩
abbrev main_v19 : Ref sig .tc := ⟨.hbm, 29, rfl⟩
abbrev main_cst_7 : Ref sig .tc := ⟨.hbm, 30, rfl⟩
abbrev main_v20 : Ref sig .tc := ⟨.hbm, 31, rfl⟩
abbrev main_cst_8 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩

abbrev nD : Nat := 1
abbrev τ : Topo := Topo.v7x

variable {F : FTy → Type} [FloatOps F]

class Facts₀ : Prop where
  reducesTo_S4x8192x3_S4x8192_d2 : S4x8192x3.ReducesTo [2] S4x8192
  h_S_ : 0 < S_.numel
  bcast_S4x8192_S4x8192x1_0_1 : S4x8192.BroadcastsInDim S4x8192x1 (![0, 1] : Fin 2 → Fin S4x8192x1.rank)
  bcast_S4x8192_S4x1x8192_0_2 : S4x8192.BroadcastsInDim S4x1x8192 (![0, 2] : Fin 2 → Fin S4x1x8192.rank)
  bcast_S4x8192x1_S4x8192x8192_0_1_2 : S4x8192x1.BroadcastsInDim S4x8192x8192 (![0, 1, 2] : Fin 3 → Fin S4x8192x8192.rank)
  bcast_S4x1x8192_S4x8192x8192_0_1_2 : S4x1x8192.BroadcastsInDim S4x8192x8192 (![0, 1, 2] : Fin 3 → Fin S4x8192x8192.rank)
  bcast_S_S4x8192x8192 : S_.BroadcastsInDim S4x8192x8192 (![] : Fin 0 → Fin S4x8192x8192.rank)
  reducesTo_S4x8192x8192_S4x8192_d2 : S4x8192x8192.ReducesTo [2] S4x8192
  reducesTo_S4x8192_S4_d1 : S4x8192.ReducesTo [1] S4
  bcast_S_S4 : S_.BroadcastsInDim S4 (![] : Fin 0 → Fin S4.rank)
  reducesTo_S4x8192x8192_S4x8192_d1 : S4x8192x8192.ReducesTo [1] S4x8192
  dot_S4x8192x3_S4x8192x3_S4x8192x8192_2_2_1_1_0_0_wf : DotDims.WF S4x8192x3 S4x8192x3 S4x8192x8192 [2] [2] [1] [1] [0] [0]

variable [Facts₀]

def dot_S4x8192x3_S4x8192x3_S4x8192x8192_2_2_1_1_0_0 : DotDims S4x8192x3 S4x8192x3 S4x8192x8192 where
  lhsContracting := [2]
  rhsContracting := [2]
  lhsNonContracting := [1]
  rhsNonContracting := [1]
  lhsBatch := [0]
  rhsBatch := [0]
  wf := dot_S4x8192x3_S4x8192x3_S4x8192x8192_2_2_1_1_0_0_wf

class Facts : Prop extends Facts₀ where

variable [Facts]
-- ==== Proof.Spec.lean ====
/-
  The mathematics of the certificate, free of either program.

  Two clouds of points in ℝ³ (extended reals here), `q` with `N` points and `k` with `M` points, in each of four
  batches. The squared distance of point `n` of `q` to point `m` of `k` is taken in the expanded form
  `|q n|² + |k m|² - 2 (q n · k m)`, clamped below at zero (`d2`), and the nearest-neighbour value of point `n` is the
  minimum of `d2` over all `m`, started from the largest value (`nnAt`, `nn`). A minimum is carried by its
  universal property: `z ≤ min` iff `z` is below the start and below every entry (`le_nnAt_iff`), so a minimum
  accumulated column block by column block is the whole minimum (`le_min_step`, `eq_nnAt_of_le_iff`).
  `d2` is symmetric in the two clouds (`d2_comm`): only commutativity of `+` and `*` on the extended reals.
-/
import Idealize.ShloMosaic.Lib.ValueIdx
import Idealize.ShloMosaic.PureOps.Ideal.Laws

noncomputable section

open scoped BigOperators

namespace Chamfer

open Idealize.ShloMosaic Idealize.ShloMosaic.ValueIdx

/-- The largest value, the start of every minimum. -/
abbrev INF : EReal := Ideal.ofBits .f32 0x7F800000#32
/-- The factor of the inner product. -/
abbrev TWO : EReal := Ideal.ofBits .f32 0x40000000#32
/-- The floor of a squared distance. -/
abbrev ZERO : EReal := Ideal.ofBits .f32 0x00000000#32

/-- A cloud: four batches of `N` points of three coordinates. -/
abbrev Cloud (N : ℕ) : Type := (⟨3, ![4, N, 3]⟩ : Shape).Idx → EReal

/-- `|x n|²` in batch `b`. -/
def sq {N : ℕ} (x : Cloud N) (b : Fin 4) (n : Fin N) : EReal :=
  ∑ d : Fin 3, x (ix3 b n d) * x (ix3 b n d)

/-- `x n · y m` in batch `b`. -/
def dotp {N M : ℕ} (x : Cloud N) (y : Cloud M) (b : Fin 4) (n : Fin N) (m : Fin M) : EReal :=
  ∑ d : Fin 3, x (ix3 b n d) * y (ix3 b m d)

/-- The clamped squared distance of point `n` of `q` to point `m` of `k`. -/
def d2 {N M : ℕ} (q : Cloud N) (k : Cloud M) (b : Fin 4) (n : Fin N) (m : Fin M) : EReal :=
  max (sq q b n + sq k b m - TWO * dotp q k b n m) ZERO

/-- The distance does not depend on which cloud is named first. -/
theorem d2_comm {N M : ℕ} (q : Cloud N) (k : Cloud M) (b : Fin 4) (n : Fin N) (m : Fin M) :
    d2 q k b n m = d2 k q b m n := by
  unfold d2 dotp
  rw [add_comm (sq q b n) (sq k b m)]
  refine congrArg (fun s => max (sq k b m + sq q b n - TWO * s) ZERO) ?_
  exact Finset.sum_congr rfl fun d _ => mul_comm _ _

/-- The nearest-neighbour value of point `n` of `q` among the points of `k`. -/
def nnAt {N M : ℕ} (q : Cloud N) (k : Cloud M) (b : Fin 4) (n : Fin N) : EReal :=
  Finset.univ.fold min INF (fun m : Fin M => d2 q k b n m)

/-- The same as an array over (batch, point). -/
def nn {N M : ℕ} (q : Cloud N) (k : Cloud M) : (⟨2, ![4, N]⟩ : Shape).Idx → EReal :=
  fun i => nnAt q k (i 0) (i 1)

theorem nn_ix2 {N M : ℕ} (q : Cloud N) (k : Cloud M) (b : Fin 4) (n : Fin N) :
    nn q k (ix2 b n) = nnAt q k b n := rfl

/-- Below a minimum: below its start and below every entry. -/
theorem le_fold_min_iff {ι : Type*} [Fintype ι] (f : ι → EReal) (z : EReal) :
    z ≤ Finset.univ.fold min INF f ↔ z ≤ INF ∧ ∀ i, z ≤ f i := by
  rw [Finset.le_fold_min]
  exact and_congr_right fun _ => ⟨fun h i => h i (Finset.mem_univ _), fun h i _ => h i⟩

theorem le_nnAt_iff {N M : ℕ} (q : Cloud N) (k : Cloud M) (b : Fin 4) (n : Fin N) (z : EReal) :
    z ≤ nnAt q k b n ↔ z ≤ INF ∧ ∀ m : Fin M, z ≤ d2 q k b n m :=
  le_fold_min_iff _ z

/-- One more block of `T` columns joins the running minimum: if `prev` is the minimum over the columns below
    `T * j` and `blk` holds the columns `T * j + l`, then `min prev (min of blk)` is the minimum over the columns
    below `T * j + T`. -/
theorem le_min_step {M : ℕ} (T j : ℕ) (f : Fin M → EReal) (hM : T * j + T ≤ M) (prev : EReal) (blk : Fin T → EReal)
    (hblk : ∀ l : Fin T, blk l = f ⟨T * j + l.val, by have := l.isLt; omega⟩)
    (hprev : ∀ z, z ≤ prev ↔ z ≤ INF ∧ ∀ m : Fin M, m.val < T * j → z ≤ f m) (z : EReal) :
    z ≤ min prev (Finset.univ.fold min INF blk) ↔ z ≤ INF ∧ ∀ m : Fin M, m.val < T * j + T → z ≤ f m := by
  rw [le_min_iff, hprev, le_fold_min_iff]
  constructor
  · rintro ⟨⟨h0, h1⟩, -, h2⟩
    refine ⟨h0, fun m hm => ?_⟩
    by_cases hlt : m.val < T * j
    · exact h1 m hlt
    · have hl : m.val - T * j < T := by omega
      have := h2 ⟨m.val - T * j, hl⟩
      rw [hblk] at this
      have e : (⟨T * j + (m.val - T * j), by omega⟩ : Fin M) = m := Fin.ext (by dsimp only; omega)
      rwa [e] at this
  · rintro ⟨h0, h1⟩
    refine ⟨⟨h0, fun m hm => h1 m (by omega)⟩, h0, fun l => ?_⟩
    rw [hblk]
    exact h1 _ (by have := l.isLt; dsimp only; omega)

/-- A value with the universal property of the minimum over all `M` columns is the nearest-neighbour value. -/
theorem eq_nnAt_of_le_iff {N M : ℕ} (q : Cloud N) (k : Cloud M) (b : Fin 4) (n : Fin N) (a : EReal)
    (h : ∀ z, z ≤ a ↔ z ≤ INF ∧ ∀ m : Fin M, m.val < M → z ≤ d2 q k b n m) : a = nnAt q k b n :=
  eq_of_forall_le_iff fun z => by
    rw [h, le_nnAt_iff]
    exact and_congr_right fun _ => ⟨fun h m => h m m.isLt, fun h m _ => h m⟩

/-- The distance read through blocks: if `x0` is the block of `Q` starting at point `n0` and `x1` the block of `K`
    starting at point `m0`, the distance between their points `r` and `l` is that between points `n0 + r` and
    `m0 + l` of the clouds. -/
theorem d2_of_blocks {N M T S : ℕ} (Q : Cloud N) (K : Cloud M) (x0 : Cloud T) (x1 : Cloud S) (n0 m0 : ℕ)
    (b : Fin 4) (r : Fin T) (l : Fin S) (hn : n0 + r.val < N) (hm : m0 + l.val < M)
    (h0 : ∀ d : Fin 3, x0 (ix3 b r d) = Q (ix3 b ⟨n0 + r.val, hn⟩ d))
    (h1 : ∀ d : Fin 3, x1 (ix3 b l d) = K (ix3 b ⟨m0 + l.val, hm⟩ d)) :
    d2 x0 x1 b r l = d2 Q K b ⟨n0 + r.val, hn⟩ ⟨m0 + l.val, hm⟩ := by
  unfold d2 sq dotp
  simp only [h0, h1]

end Chamfer

end
-- ==== Proof.RefValue.lean ====
/-
  The reference's two nearest-neighbour arrays are the specification's.
-/
import proofs.«101880_j88364657148397_1_alg».proof.Proof.Gen.ReferenceIdeal.Read
import proofs.«101880_j88364657148397_1_alg».proof.Proof.Spec
import Idealize.ShloMosaic.PureOps.Reduce

noncomputable section

open scoped BigOperators

namespace Cert.ReferenceIdeal.RefValue

open Cert.ReferenceIdeal Cert.ReferenceIdeal.Gen Cert.ReferenceIdeal.Read
open Idealize.ShloMosaic Idealize.ShloMosaic.ValueIdx Chamfer

/-- The clamped squared-distance array of the reference, at (batch, n, m). -/
theorem v14_at (x0 x1 : Cloud 8192) (b : Fin 4) (n m : Fin 8192) :
    val_main_v14 (F := Ideal) x0 x1 (ix3 b n m) = d2 x0 x1 b n m := by
  -- Where each operand is read: the two squared norms at (b, n, d) and (b, m, d), the inner product at both.
  have e1 : ∀ k : Fin 3, idx_main_v1 (idx_main_v4 (idx_main_v6 (ix3 b n m))) k = ix3 b n k := fun k =>
    funext fun a => Fin.ext (by match a with | ⟨0, _⟩ => rfl | ⟨1, _⟩ => rfl | ⟨2, _⟩ => rfl)
  have e3 : ∀ k : Fin 3, idx_main_v3 (idx_main_v5 (idx_main_v7 (ix3 b n m))) k = ix3 b m k := fun k =>
    funext fun a => Fin.ext (by match a with | ⟨0, _⟩ => rfl | ⟨1, _⟩ => rfl | ⟨2, _⟩ => rfl)
  have el : ∀ k : Fin 3, lidx_main_v9 (ix3 b n m) k = ix3 b n k := fun k =>
    funext fun a => Fin.ext (by match a with | ⟨0, _⟩ => rfl | ⟨1, _⟩ => rfl | ⟨2, _⟩ => rfl)
  have er : ∀ k : Fin 3, ridx_main_v9 (ix3 b n m) k = ix3 b m k := fun k =>
    funext fun a => Fin.ext (by match a with | ⟨0, _⟩ => rfl | ⟨1, _⟩ => rfl | ⟨2, _⟩ => rfl)
  -- The element is max (|x0 n|² + |x1 m|² - 2 (x0 n · x1 m)) 0, each sum started from zero.
  rw [val_main_v14_apply, val_main_v12_apply, val_main_v8_apply, val_main_v6_apply, val_main_v4_apply,
    val_main_v1_apply, val_main_v7_apply, val_main_v5_apply, val_main_v3_apply, val_main_v11_apply,
    val_main_v10_apply, val_main_v9_apply, val_main_v13_apply, val_main_cst_apply, val_main_cst_0_apply,
    val_main_cst_1_apply, val_main_cst_2_apply]
  simp only [val_main_v0_apply, val_main_v2_apply, e1, e3, el, er, Ideal.maximumf_def, Ideal.subf_def,
    Ideal.addf_def, Ideal.mulf_def, Ideal.ofBits_def]
  unfold d2 Chamfer.sq dotp
  rw [Ideal.ofBits_zero_f32, zero_add, zero_add]
  exact congrArg (max _) Ideal.ofBits_zero_f32.symm

/-- Its minimum over the second cloud's points. -/
theorem v15_eq (x0 x1 : Cloud 8192) : val_main_v15 (F := Ideal) x0 x1 = nn x0 x1 := by
  funext i
  obtain ⟨b, n, rfl⟩ : ∃ (b : Fin 4) (n : Fin 8192), i = ix2 b n := ⟨i 0, i 1, eq_ix2 i⟩
  have h : S4x8192x8192.Reduces [2] S4x8192 := by decide
  unfold val_main_v15
  -- A minimum over the last axis: the fold of min from the start value over m, at (b, n, m).
  refine (Host.reduce_eq_fold_single _ _ _ reducesTo_S4x8192x8192_S4x8192_d2 h h_S_ (ix2 b n)).trans ?_
  rw [nn_ix2]
  unfold nnAt
  have hf : (val_main_v14 (F := Ideal) x0 x1 ∘ h.lift (ix2 b n)) = fun m : Fin 8192 => d2 x0 x1 b n m := by
    refine funext fun (m : Fin 8192) => ?_
    have hm : h.lift (ix2 b n) m = ix3 b n m :=
      funext fun a => Fin.ext (by match a with | ⟨0, _⟩ => rfl | ⟨1, _⟩ => rfl | ⟨2, _⟩ => rfl)
    exact (congrArg (val_main_v14 (F := Ideal) x0 x1) hm).trans (v14_at x0 x1 b n m)
  rw [hf]
  rfl

/-- Its minimum over the first cloud's points. -/
theorem v19_eq (x0 x1 : Cloud 8192) : val_main_v19 (F := Ideal) x0 x1 = nn x1 x0 := by
  funext i
  obtain ⟨b, m, rfl⟩ : ∃ (b : Fin 4) (m : Fin 8192), i = ix2 b m := ⟨i 0, i 1, eq_ix2 i⟩
  have h : S4x8192x8192.Reduces [1] S4x8192 := by decide
  unfold val_main_v19
  -- A minimum over the middle axis: the fold of min from the start value over n, at (b, n, m);
  -- the distance is symmetric in the two clouds.
  refine (Host.reduce_eq_fold_single _ _ _ reducesTo_S4x8192x8192_S4x8192_d1 h h_S_ (ix2 b m)).trans ?_
  rw [nn_ix2]
  unfold nnAt
  have hf : (val_main_v14 (F := Ideal) x0 x1 ∘ h.lift (ix2 b m)) = fun n : Fin 8192 => d2 x1 x0 b m n := by
    refine funext fun (n : Fin 8192) => ?_
    have hn : h.lift (ix2 b m) n = ix3 b n m :=
      funext fun a => Fin.ext (by match a with | ⟨0, _⟩ => rfl | ⟨1, _⟩ => rfl | ⟨2, _⟩ => rfl)
    exact ((congrArg (val_main_v14 (F := Ideal) x0 x1) hn).trans (v14_at x0 x1 b n m)).trans
      (d2_comm x0 x1 b n m)
  rw [hf]
  rfl

end Cert.ReferenceIdeal.RefValue

end
-- ==== Proof.Pieces.lean ====
/-
  What each control case of the body leaves in the output block, as the body's stored value: the first point of a
  grid row resets the block to the largest value before it takes the minimum, every other point takes the minimum
  with what the point before left. The same for both calls of the kernel.
-/
import proofs.«101880_j88364657148397_1_alg».proof.Proof.Gen.KernelIdeal.Frame
import Idealize.ShloMosaic.Lib.Pipeline.Value
import Idealize.ShloMosaic.Lib.Tactic

noncomputable section

namespace Cert.KernelIdeal.Pieces

open Idealize.ShloMosaic Idealize.ShloMosaic.TcCoe Idealize.SL.Sem
open Cert.KernelIdeal Cert.KernelIdeal.Gen

variable {F : FTy → Type} [FloatOps F]

theorem hz2 : (![0, 0] : Fin 2 → Nat) = fun _ => 0 := funext fun a => by fin_cases a <;> rfl
theorem hz3 : (![0, 0, 0] : Fin 3 → Nat) = fun _ => 0 := funext fun a => by fin_cases a <;> rfl

/-- A point that does not start a row of the grid: the body leaves, in the output block holding `xo`, the stored
    value of the two input blocks and `xo` — its one store covers the block, its loads read whole buffers. -/
theorem out0_B (c : Dev nD) (i : grid0.Coords) (a2 : Memref sig .tc .vmem S4x512x3 .f32) (h2 : a2.IsWhole)
    (a3 : Memref sig .tc .vmem S4x512x3 .f32) (h3 : a3.IsWhole) (a4 : Memref sig .tc .vmem S4x512 .f32) (h4 : a4.IsWhole)
    (hc : ¬cond0_0 i) (x0 x1 : Vec F S4x512x3 .f32) (xo : Vec F S4x512 .f32) :
    out0_B_2 c i a2 h2 a3 h3 a4 h4 hc x0 x1 xo = k0_pay2 x0 x1 xo := by
  unfold out0_B_2
  rw [View.read_writes_eq_canon _ _ _ (cover0_B_2 c i a2 h2 a3 h3 a4 h4 hc x0 x1 xo)]
  unfold kernelRun0_B
  dsimp only
  sl_unfold_words
  rw [View.canon_unit_zero hz2]
  simp only [View.readAt_eq_ld, h2.read_unread, h3.read_unread, h4.read_unread, View.ld_unit_zero (S := S4x512x3) hz3,
    View.ld_unit_zero (S := S4x512) hz2]

/-- A point that starts a row of the grid: the body first stores the largest value over the whole block, reads it
    back, and leaves the stored value of the two input blocks and that reset block. -/
theorem out0_A (c : Dev nD) (i : grid0.Coords) (a2 : Memref sig .tc .vmem S4x512x3 .f32) (h2 : a2.IsWhole)
    (a3 : Memref sig .tc .vmem S4x512x3 .f32) (h3 : a3.IsWhole) (a4 : Memref sig .tc .vmem S4x512 .f32) (h4 : a4.IsWhole)
    (hc : cond0_0 i) (x0 x1 : Vec F S4x512x3 .f32) :
    out0_A_2 c i a2 h2 a3 h3 a4 h4 hc x0 x1 = k0_pay2 x0 x1 (k0_pay1 (F := F)) := by
  unfold out0_A_2
  rw [View.read_writes_eq_canon _ _ _ (cover0_A_2 c i a2 h2 a3 h3 a4 h4 hc x0 x1)]
  unfold kernelRun0_A
  dsimp only
  sl_unfold_words
  rw [View.canon_cons_unit_zero (S := S4x512) hz2, View.readCov_unit_zero (S := S4x512) _ hz2]
  simp only [View.readAt_eq_ld, h2.read_unread, h3.read_unread, View.ld_unit_zero (S := S4x512x3) hz3]

/-- A point that does not start a row of the grid: the body leaves, in the output block holding `xo`, the stored
    value of the two input blocks and `xo` — its one store covers the block, its loads read whole buffers. -/
theorem out1_B (c : Dev nD) (i : grid1.Coords) (a2 : Memref sig .tc .vmem S4x512x3 .f32) (h2 : a2.IsWhole)
    (a3 : Memref sig .tc .vmem S4x512x3 .f32) (h3 : a3.IsWhole) (a4 : Memref sig .tc .vmem S4x512 .f32) (h4 : a4.IsWhole)
    (hc : ¬cond1_0 i) (x0 x1 : Vec F S4x512x3 .f32) (xo : Vec F S4x512 .f32) :
    out1_B_2 c i a2 h2 a3 h3 a4 h4 hc x0 x1 xo = k1_pay2 x0 x1 xo := by
  unfold out1_B_2
  rw [View.read_writes_eq_canon _ _ _ (cover1_B_2 c i a2 h2 a3 h3 a4 h4 hc x0 x1 xo)]
  unfold kernelRun1_B
  dsimp only
  sl_unfold_words
  rw [View.canon_unit_zero hz2]
  simp only [View.readAt_eq_ld, h2.read_unread, h3.read_unread, h4.read_unread, View.ld_unit_zero (S := S4x512x3) hz3,
    View.ld_unit_zero (S := S4x512) hz2]

/-- A point that starts a row of the grid: the body first stores the largest value over the whole block, reads it
    back, and leaves the stored value of the two input blocks and that reset block. -/
theorem out1_A (c : Dev nD) (i : grid1.Coords) (a2 : Memref sig .tc .vmem S4x512x3 .f32) (h2 : a2.IsWhole)
    (a3 : Memref sig .tc .vmem S4x512x3 .f32) (h3 : a3.IsWhole) (a4 : Memref sig .tc .vmem S4x512 .f32) (h4 : a4.IsWhole)
    (hc : cond1_0 i) (x0 x1 : Vec F S4x512x3 .f32) :
    out1_A_2 c i a2 h2 a3 h3 a4 h4 hc x0 x1 = k1_pay2 x0 x1 (k1_pay1 (F := F)) := by
  unfold out1_A_2
  rw [View.read_writes_eq_canon _ _ _ (cover1_A_2 c i a2 h2 a3 h3 a4 h4 hc x0 x1)]
  unfold kernelRun1_A
  dsimp only
  sl_unfold_words
  rw [View.canon_cons_unit_zero (S := S4x512) hz2, View.readCov_unit_zero (S := S4x512) _ hz2]
  simp only [View.readAt_eq_ld, h2.read_unread, h3.read_unread, View.ld_unit_zero (S := S4x512x3) hz3]

end Cert.KernelIdeal.Pieces

end
-- ==== Proof.Payload.lean ====
/-
  What one grid point's body stores, read at an entry of the output block.
-/
import proofs.«101880_j88364657148397_1_alg».proof.Proof.Gen.KernelIdeal.Skeleton
import proofs.«101880_j88364657148397_1_alg».proof.Proof.Spec
import Idealize.ShloMosaic.PureOps.Reduce
import Idealize.ShloMosaic.Lib.Pipeline.Value
import Idealize.ShloMosaic.Lib.ValueLayout

noncomputable section

open scoped BigOperators

namespace Cert.KernelIdeal.Payload

open Cert.KernelIdeal Cert.KernelIdeal.Gen
open Idealize.ShloMosaic Idealize.ShloMosaic.ValueIdx Chamfer

/-- The reset value of the running minimum. -/
theorem pay1_at (y : S4x512.Idx) : k0_pay1 (F := Ideal) y = INF := rfl
theorem pay1'_at (y : S4x512.Idx) : k1_pay1 (F := Ideal) y = INF := rfl

/-! ## The reductions over the last axis -/

/-- A minimum reduction over one axis, read at the ideal values: the fold of `min` from the accumulator's value over
    that axis's coordinates. -/
theorem multiReduction_minimumf_single {φ : FTy} {s t : Shape} {a : Fin s.rank} (src : FVec Ideal s φ) (acc : BitVec φ.bits)
    (h : s.Reduces [a] t) (hφ : FKind.Formats φ) (hacc : acc = FKind.minimumf.neutral φ hφ) (j : t.Idx) :
    multiReduction .minimumf [a] t src acc h hφ hacc j
      = (Finset.univ : Finset (Fin (s.size a))).fold min (FloatOps.ofBits φ acc) (src ∘ h.lift j) := by
  rw [multiReduction_minimumf_eq_fold]; exact h.fold_filter_drop_single _ _ src j

/-- The source index over `(b, r)` with `l` on the last axis is `(b, r, l)`. -/
theorem lift_lane (b : Fin 4) (r : Fin 512) (l : Fin 512) :
    reduces_S4x512x512_S4x512.lift (ix2 b r) l = ix3 b r l :=
  funext fun a => Fin.ext (by
    match a with
    | ⟨0, _⟩ => rfl
    | ⟨1, _⟩ => rfl
    | ⟨2, _⟩ => rfl)

/-- The minimum over the last axis of a [4,512,512] block at `(b, r)`: the fold of `min` over the 512 lanes. -/
theorem lane_min (v : S4x512x512.Idx → EReal) (b : Fin 4) (r : Fin 512) :
    multiReduction (F := Ideal) .minimumf [2] S4x512 v 0x7F800000#32 reduces_S4x512x512_S4x512 (.inl rfl) rfl (ix2 b r)
      = Finset.univ.fold min INF (fun l : Fin 512 => v (ix3 b r l)) := by
  have H := multiReduction_minimumf_single (φ := .f32) (s := S4x512x512) (t := S4x512) (a := 2) v 0x7F800000#32
    reduces_S4x512x512_S4x512 (.inl rfl) rfl (ix2 b r)
  have e : (v ∘ reduces_S4x512x512_S4x512.lift (ix2 b r)) = (fun l : Fin 512 => v (ix3 b r l)) :=
    funext fun l => congrArg v (lift_lane b r l)
  exact H.trans (congrArg (fun f => Finset.fold min INF f Finset.univ) e)

/-- The source index over `(b, r)` with `d` on the coordinate axis is `(b, r, d)`. -/
theorem lift_coord (b : Fin 4) (r : Fin 512) (d : Fin 3) :
    reduces_S4x512x3_S4x512.lift (ix2 b r) d = ix3 b r d :=
  funext fun a => Fin.ext (by
    match a with
    | ⟨0, _⟩ => rfl
    | ⟨1, _⟩ => rfl
    | ⟨2, _⟩ => rfl)

/-- The sum over the last axis of a [4,512,3] block at `(b, r)`: the sum over the three coordinates. -/
theorem row_sum (v : S4x512x3.Idx → EReal) (b : Fin 4) (r : Fin 512) :
    multiReduction (F := Ideal) (φ := .f32) .add [2] S4x512 v 0x00000000#32 reduces_S4x512x3_S4x512 (.inl rfl) rfl (ix2 b r)
      = ∑ d : Fin 3, v (ix3 b r d) := by
  have H := Ideal.multiReduction_add_single (φ := .f32) (s := S4x512x3) (t := S4x512) (a := 2) v 0x00000000#32
    reduces_S4x512x3_S4x512 (.inl rfl) rfl (ix2 b r)
  exact H.trans (Finset.sum_congr rfl fun d _ => congrArg v (lift_coord b r d))

/-! ## A row sum spread over the lanes, and over the rows -/

/-- A [4,512] array set as a column [4,512,1] and spread over 512 lanes reads its row's entry on every lane. -/
theorem col_bcast (v : S4x512.Idx → EReal) (b : Fin 4) (r l : Fin 512) :
    broadcastTo S4x512x512 (shapeCast S4x512x1 v shapeCasts_S4x512_S4x512x1) broadcasts_S4x512x1_S4x512x512 (ix3 b r l)
      = v (ix2 b r) := by
  refine (broadcastTo_apply _ broadcasts_S4x512x1_S4x512x512 (ix3 b r l) (ix3 b r (0 : Fin 1)) fun a => ?_).trans ?_
  · match a with
    | ⟨0, _⟩ => rfl
    | ⟨1, _⟩ => rfl
    | ⟨2, _⟩ => rfl
  · refine shapeCast_apply v shapeCasts_S4x512_S4x512x1 (ix3 b r (0 : Fin 1)) (ix2 b r) ?_
    rw [Shape.rowMajor_val_three, Shape.rowMajor_val_two]
    show b.val * 512 + r.val = (b.val * 512 + r.val) * 1 + 0
    omega

/-- A [4,512] array set as a row [4,1,512] and spread over 512 rows reads, on lane `l`, its entry `l`. -/
theorem row_bcast (v : S4x512.Idx → EReal) (b : Fin 4) (r l : Fin 512) :
    broadcastTo S4x512x512 (shapeCast S4x1x512 v shapeCasts_S4x512_S4x1x512) broadcasts_S4x1x512_S4x512x512 (ix3 b r l)
      = v (ix2 b l) := by
  refine (broadcastTo_apply _ broadcasts_S4x1x512_S4x512x512 (ix3 b r l) (ix3 b (0 : Fin 1) l) fun a => ?_).trans ?_
  · match a with
    | ⟨0, _⟩ => rfl
    | ⟨1, _⟩ => rfl
    | ⟨2, _⟩ => rfl
  · refine shapeCast_apply v shapeCasts_S4x512_S4x1x512 (ix3 b (0 : Fin 1) l) (ix2 b l) ?_
    rw [Shape.rowMajor_val_three, Shape.rowMajor_val_two]
    show b.val * 512 + l.val = (b.val * 1 + 0) * 512 + l.val
    omega

/-! ## The inner products

The operand indices of the batched product at output index `i` and contraction index `q`, axis by axis: both
operands take the batch from `i 0` and the coordinate from `q`; the left one takes its point from `i 1`, the right
one from `i 2`. -/

theorem lhs_mm_0 (i : S4x512x512.Idx) (q : dot_S4x512x3_S4x512x3_S4x512x512_2_2_1_1_0_0.contr.Idx) :
    (dot_S4x512x3_S4x512x3_S4x512x512_2_2_1_1_0_0.lhsIdx i q 0).val = (i 0).val := by
  unfold DotDims.lhsIdx
  rw [dif_pos (show (0 : Fin S4x512x3.rank) ∈ dot_S4x512x3_S4x512x3_S4x512x512_2_2_1_1_0_0.lhsBatch by decide)]
  rfl
theorem lhs_mm_1 (i : S4x512x512.Idx) (q : dot_S4x512x3_S4x512x3_S4x512x512_2_2_1_1_0_0.contr.Idx) :
    (dot_S4x512x3_S4x512x3_S4x512x512_2_2_1_1_0_0.lhsIdx i q 1).val = (i 1).val := by
  unfold DotDims.lhsIdx
  rw [dif_neg (show ¬(1 : Fin S4x512x3.rank) ∈ dot_S4x512x3_S4x512x3_S4x512x512_2_2_1_1_0_0.lhsBatch by decide), dif_pos (show (1 : Fin S4x512x3.rank) ∈ dot_S4x512x3_S4x512x3_S4x512x512_2_2_1_1_0_0.lhsNonContracting by decide)]
  rfl
theorem lhs_mm_2 (i : S4x512x512.Idx) (q : dot_S4x512x3_S4x512x3_S4x512x512_2_2_1_1_0_0.contr.Idx) :
    (dot_S4x512x3_S4x512x3_S4x512x512_2_2_1_1_0_0.lhsIdx i q 2).val = (q ⟨0, by decide⟩).val :=
  dot_S4x512x3_S4x512x3_S4x512x512_2_2_1_1_0_0.lhsIdx_val_of_single rfl i q
theorem rhs_mm_0 (i : S4x512x512.Idx) (q : dot_S4x512x3_S4x512x3_S4x512x512_2_2_1_1_0_0.contr.Idx) :
    (dot_S4x512x3_S4x512x3_S4x512x512_2_2_1_1_0_0.rhsIdx i q 0).val = (i 0).val := by
  unfold DotDims.rhsIdx
  rw [dif_pos (show (0 : Fin S4x512x3.rank) ∈ dot_S4x512x3_S4x512x3_S4x512x512_2_2_1_1_0_0.rhsBatch by decide)]
  rfl
theorem rhs_mm_1 (i : S4x512x512.Idx) (q : dot_S4x512x3_S4x512x3_S4x512x512_2_2_1_1_0_0.contr.Idx) :
    (dot_S4x512x3_S4x512x3_S4x512x512_2_2_1_1_0_0.rhsIdx i q 1).val = (i 2).val := by
  unfold DotDims.rhsIdx
  rw [dif_neg (show ¬(1 : Fin S4x512x3.rank) ∈ dot_S4x512x3_S4x512x3_S4x512x512_2_2_1_1_0_0.rhsBatch by decide), dif_pos (show (1 : Fin S4x512x3.rank) ∈ dot_S4x512x3_S4x512x3_S4x512x512_2_2_1_1_0_0.rhsNonContracting by decide)]
  rfl
theorem rhs_mm_2 (i : S4x512x512.Idx) (q : dot_S4x512x3_S4x512x3_S4x512x512_2_2_1_1_0_0.contr.Idx) :
    (dot_S4x512x3_S4x512x3_S4x512x512_2_2_1_1_0_0.rhsIdx i q 2).val = (q ⟨0, by decide⟩).val :=
  dot_S4x512x3_S4x512x3_S4x512x512_2_2_1_1_0_0.rhsIdx_val_of_single rfl i q

/-- The batched product of two [4,512,3] blocks over their coordinate axis, into the zero block, at `(b, r, l)`: the
    inner product of point `r` of the first with point `l` of the second. -/
theorem mm_apply {φ₁ φ₂ : FTy} (p : FVec Ideal S4x512x3 φ₁) (q : FVec Ideal S4x512x3 φ₂) (b : Fin 4) (r l : Fin 512) :
    matmul (F := Ideal) dot_S4x512x3_S4x512x3_S4x512x512_2_2_1_1_0_0 none p q (constant (F := Ideal) S4x512x512 .f32 0x00000000#32) (ix3 b r l)
      = ∑ d : Fin 3, p (ix3 b r d) * q (ix3 b l d) := by
  simp only [matmul]
  rw [Ideal.matmul_constant_zero_apply, ← Equiv.sum_comp (ValueIdx.contrEquiv1 dot_S4x512x3_S4x512x3_S4x512x512_2_2_1_1_0_0 3 rfl rfl).symm]
  refine Finset.sum_congr rfl fun k _ => ?_
  have hk := ValueIdx.contrEquiv1_symm_val dot_S4x512x3_S4x512x3_S4x512x512_2_2_1_1_0_0 3 rfl rfl k
  have el : dot_S4x512x3_S4x512x3_S4x512x512_2_2_1_1_0_0.lhsIdx (ix3 b r l) ((ValueIdx.contrEquiv1 dot_S4x512x3_S4x512x3_S4x512x512_2_2_1_1_0_0 3 rfl rfl).symm k) = ix3 b r k := funext fun a => Fin.ext (by
    match a with
    | ⟨0, _⟩ => exact lhs_mm_0 _ _
    | ⟨1, _⟩ => exact lhs_mm_1 _ _
    | ⟨2, _⟩ => exact (lhs_mm_2 _ _).trans hk)
  have er : dot_S4x512x3_S4x512x3_S4x512x512_2_2_1_1_0_0.rhsIdx (ix3 b r l) ((ValueIdx.contrEquiv1 dot_S4x512x3_S4x512x3_S4x512x512_2_2_1_1_0_0 3 rfl rfl).symm k) = ix3 b l k := funext fun a => Fin.ext (by
    match a with
    | ⟨0, _⟩ => exact rhs_mm_0 _ _
    | ⟨1, _⟩ => exact rhs_mm_1 _ _
    | ⟨2, _⟩ => exact (rhs_mm_2 _ _).trans hk)
  rw [el, er]

/-! ## The stored value

The outer minimum and the lane minimum are read at the entry `(b, r)`; on lane `l` the clamped term is
`|x0 r|² + |x1 l|² - 2 (x0 r · x1 l)` floored at zero: its two squared norms are the row sums, the first spread along
the lanes and the second along the rows, and its inner product is the batched product's entry `(b, r, l)`. -/

/-- The body's stored value at row `r` of batch `b`: the running value there, lowered by the least clamped squared
    distance from the query block's point `r` to the 512 points of the key block. -/
theorem pay2_at (x0 x1 : Cloud 512) (xo : S4x512.Idx → EReal) (b : Fin 4) (r : Fin 512) :
    k0_pay2 (F := Ideal) x0 x1 xo (ix2 b r)
      = min (xo (ix2 b r)) (Finset.univ.fold min INF (fun l : Fin 512 => d2 x0 x1 b r l)) := by
  unfold k0_pay2
  rw [minimumf_apply, shapeCast_self]
  refine congrArg (min (xo (ix2 b r))) ?_
  refine (lane_min _ b r).trans ?_
  refine congrArg (fun f => Finset.fold min INF f Finset.univ) (funext fun l => ?_)
  rw [maximumf_apply, subf_apply, addf_apply, mulf_apply, broadcast_apply, broadcast_apply, col_bcast, row_bcast,
    row_sum, row_sum, mm_apply]
  rfl

/-- The second call's body is the same text. -/
theorem pay2'_at (x0 x1 : Cloud 512) (xo : S4x512.Idx → EReal) (b : Fin 4) (r : Fin 512) :
    k1_pay2 (F := Ideal) x0 x1 xo (ix2 b r)
      = min (xo (ix2 b r)) (Finset.univ.fold min INF (fun l : Fin 512 => d2 x0 x1 b r l)) := by
  unfold k1_pay2
  rw [minimumf_apply, shapeCast_self]
  refine congrArg (min (xo (ix2 b r))) ?_
  refine (lane_min _ b r).trans ?_
  refine congrArg (fun f => Finset.fold min INF f Finset.univ) (funext fun l => ?_)
  rw [maximumf_apply, subf_apply, addf_apply, mulf_apply, broadcast_apply, broadcast_apply, col_bcast, row_bcast,
    row_sum, row_sum, mm_apply]
  rfl

end Cert.KernelIdeal.Payload

end
-- ==== Proof.Region0.lean ====
/-
  The first call of the kernel: its result array is the nearest-neighbour array of its two operand clouds.

  The grid is 16 x 16: point `t` works on query block `t / 16` (512 points of the first operand) against key block
  `t % 16` (512 points of the second), and the output block of a grid row is carried from point to point. After point
  `t` its entry for batch `b`, row `r` is the minimum, from the largest value, of the clamped squared distances from
  query point `512 (t / 16) + r` to the key points below `512 (t % 16) + 512` — by induction on the point, through
  the universal property of a minimum: the first point of a row resets, every other point lowers what the point before
  left. At the last point of a row the minimum is over all 8192 key points; those sixteen points are the ones whose
  block is written back, and their blocks tile the array.
-/
import proofs.«101880_j88364657148397_1_alg».proof.Proof.Gen.KernelIdeal.Frame
import proofs.«101880_j88364657148397_1_alg».proof.Proof.Pieces
import proofs.«101880_j88364657148397_1_alg».proof.Proof.Payload
import proofs.«101880_j88364657148397_1_alg».proof.Proof.Spec
import Idealize.ShloMosaic.Lib.Pipeline.Value

set_option maxRecDepth 16384

noncomputable section

namespace Cert.KernelIdeal.Region0

open Idealize.ShloMosaic Idealize.ShloMosaic.TcCoe Idealize.SL.Sem
open Idealize.ShloMosaic.Pipeline (Dat)
open Idealize.ShloMosaic.ValueIdx Chamfer
open Cert.KernelIdeal Cert.KernelIdeal.Gen

variable (V : (c : Dev nD) → (b : Ref sig .tc) → Buf (Elt Ideal) ((c : Thread nD τ).loc b))

/-- The query cloud (the call's first operand) and the key cloud (its second), as the call finds them. -/
abbrev qry (c : Dev nD) : Cloud 8192 := V c main_arg0
abbrev key (c : Dev nD) : Cloud 8192 := V c main_arg1
/-- Their blocks at grid point `t`. -/
abbrev qblk (c : Dev nD) (t : Fin cfg0.N) : Cloud 512 := iblk0 V c 0 t
abbrev kblk (c : Dev nD) (t : Fin cfg0.N) : Cloud 512 := iblk0 V c 1 t

/-- The query point that row `r` of point `n`'s block is, and the key point that column `l` of its block is. -/
abbrev rowAt (n : ℕ) (r : Fin 512) : Fin 8192 := ⟨512 * (n / 16 % 16) + r.val, by have := r.isLt; omega⟩
abbrev colAt (n : ℕ) (l : Fin 512) : Fin 8192 := ⟨512 * (n % 16) + l.val, by have := l.isLt; omega⟩

/-- The printed index maps over the grid: the query window moves with the grid row, the key window with the grid
    column, the output window with the grid row; no window moves along the batch or coordinate axis. -/
theorem idx_facts : ∀ t : Fin cfg0.N,
    win0_0.index t (0 : Fin 3) = 0 ∧ win0_0.index t (1 : Fin 3) = t.val / 16 % 16 ∧ win0_0.index t (2 : Fin 3) = 0
    ∧ win0_1.index t (0 : Fin 3) = 0 ∧ win0_1.index t (1 : Fin 3) = t.val % 16 ∧ win0_1.index t (2 : Fin 3) = 0
    ∧ win0_2.index t (0 : Fin 2) = 0 ∧ win0_2.index t (1 : Fin 2) = t.val / 16 % 16 :=
  (by decide +kernel : ∀ t : Fin grid0.N, _)

/-- The query block at point `t` reads the query cloud at the block's rows. -/
theorem qblk_at (c : Dev nD) (t : Fin cfg0.N) (b : Fin 4) (r : Fin 512) (d : Fin 3) :
    qblk V c t (ix3 b r d) = qry V c (ix3 b (rowAt t.val r) d) := by
  obtain ⟨e0, e1, e2, -⟩ := idx_facts t
  show V c main_arg0 (((cfg0.win 0).blk t).view.emb (ix3 b r d)) = V c main_arg0 (ix3 b (rowAt t.val r) d)
  refine congrArg (V c main_arg0) (funext fun a => Fin.ext ?_)
  match a with
  | ⟨0, _⟩ => show win0_0.index t (0 : Fin 3) * 4 + 1 * b.val = b.val; omega
  | ⟨1, _⟩ => show win0_0.index t (1 : Fin 3) * 512 + 1 * r.val = 512 * (t.val / 16 % 16) + r.val; omega
  | ⟨2, _⟩ => show win0_0.index t (2 : Fin 3) * 3 + 1 * d.val = d.val; omega

/-- The key block at point `t` reads the key cloud at the block's rows. -/
theorem kblk_at (c : Dev nD) (t : Fin cfg0.N) (b : Fin 4) (l : Fin 512) (d : Fin 3) :
    kblk V c t (ix3 b l d) = key V c (ix3 b (colAt t.val l) d) := by
  obtain ⟨-, -, -, e0, e1, e2, -⟩ := idx_facts t
  show V c main_arg1 (((cfg0.win 1).blk t).view.emb (ix3 b l d)) = V c main_arg1 (ix3 b (colAt t.val l) d)
  refine congrArg (V c main_arg1) (funext fun a => Fin.ext ?_)
  match a with
  | ⟨0, _⟩ => show win0_1.index t (0 : Fin 3) * 4 + 1 * b.val = b.val; omega
  | ⟨1, _⟩ => show win0_1.index t (1 : Fin 3) * 512 + 1 * l.val = 512 * (t.val % 16) + l.val; omega
  | ⟨2, _⟩ => show win0_1.index t (2 : Fin 3) * 3 + 1 * d.val = d.val; omega

/-- So a distance between the blocks' points is the distance between the clouds' points. -/
theorem d2_blk (c : Dev nD) (t : Fin cfg0.N) (b : Fin 4) (r l : Fin 512) :
    d2 (qblk V c t) (kblk V c t) b r l = d2 (qry V c) (key V c) b (rowAt t.val r) (colAt t.val l) :=
  d2_of_blocks (qry V c) (key V c) (qblk V c t) (kblk V c t) (512 * (t.val / 16 % 16)) (512 * (t.val % 16)) b r l
    (by have := r.isLt; omega) (by have := l.isLt; omega) (fun d => qblk_at V c t b r d) (fun d => kblk_at V c t b l d)

/-- What the output block holds after a point that starts a grid row, entry by entry. -/
theorem outs_A (c : Dev nD) (t : Fin cfg0.N) (h0 : t.val % 16 = 0) (b : Fin 4) (r : Fin 512) :
    outsAt0 V c t.val t.isLt (ix2 b r)
      = min INF (Finset.univ.fold min INF fun l : Fin 512 => d2 (qblk V c t) (kblk V c t) b r l) := by
  have e : outsAt0 V c t.val t.isLt = k0_pay2 (F := Ideal) (iblk0 V c 0 t) (iblk0 V c 1 t) (k0_pay1 (F := Ideal)) :=
    (outsAt0_A V c t h0).trans (Pieces.out0_A (F := Ideal) c (grid0.coords t) (ms0_0 t) (hs0_0 t) (ms0_1 t) (hs0_1 t)
      (ms0_2 t) (hs0_2 t) ((hcond0_0 t).mpr h0) (iblk0 V c 0 t) (iblk0 V c 1 t))
  exact (congrFun e (ix2 b r)).trans (Payload.pay2_at (qblk V c t) (kblk V c t) (k0_pay1 (F := Ideal)) b r)

/-- What it holds after any other point, over what the point before left. -/
theorem outs_B (c : Dev nD) (t : Fin cfg0.N) (h0 : ¬t.val % 16 = 0) (b : Fin 4) (r : Fin 512) :
    outsAt0 V c t.val t.isLt (ix2 b r)
      = min (outsAt0 V c (t.val - 1) (Nat.lt_of_le_of_lt (Nat.sub_le _ _) t.isLt) (ix2 b r))
          (Finset.univ.fold min INF fun l : Fin 512 => d2 (qblk V c t) (kblk V c t) b r l) := by
  have e : outsAt0 V c t.val t.isLt = k0_pay2 (F := Ideal) (iblk0 V c 0 t) (iblk0 V c 1 t)
      (outsAt0 V c (t.val - 1) (Nat.lt_of_le_of_lt (Nat.sub_le _ _) t.isLt)) :=
    (outsAt0_B V c t h0).trans (Pieces.out0_B (F := Ideal) c (grid0.coords t) (ms0_0 t) (hs0_0 t) (ms0_1 t) (hs0_1 t)
      (ms0_2 t) (hs0_2 t) (fun h => h0 ((hcond0_0 t).mp h)) (iblk0 V c 0 t) (iblk0 V c 1 t)
      (outsAt0 V c (t.val - 1) (Nat.lt_of_le_of_lt (Nat.sub_le _ _) t.isLt)))
  exact (congrFun e (ix2 b r)).trans (Payload.pay2_at (qblk V c t) (kblk V c t)
    (outsAt0 V c (t.val - 1) (Nat.lt_of_le_of_lt (Nat.sub_le _ _) t.isLt)) b r)

/-- THE RUNNING MINIMUM. After point `n` the output block's entry (b, r) is the minimum, from the largest value, of
    the distances from query point `rowAt n r` to the key points below `512 (n % 16) + 512`. -/
theorem running (c : Dev nD) : ∀ (n : ℕ) (h : n < cfg0.N) (b : Fin 4) (r : Fin 512) (z : EReal),
    z ≤ outsAt0 V c n h (ix2 b r)
      ↔ z ≤ INF ∧ ∀ m : Fin 8192, m.val < 512 * (n % 16) + 512 → z ≤ d2 (qry V c) (key V c) b (rowAt n r) m := by
  intro n
  induction n with
  | zero =>
    intro h b r z
    rw [outs_A V c ⟨0, h⟩ rfl b r]
    refine le_min_step 512 (0 % 16) (fun m => d2 (qry V c) (key V c) b (rowAt 0 r) m) (by omega) INF _
      (fun l => d2_blk V c ⟨0, h⟩ b r l) (fun z => ⟨fun hz => ⟨hz, fun m hm => absurd hm (by omega)⟩, fun hz => hz.1⟩) z
  | succ n ih =>
    intro h b r z
    by_cases h0 : (n + 1) % 16 = 0
    · rw [outs_A V c ⟨n + 1, h⟩ h0 b r]
      refine le_min_step 512 ((n + 1) % 16) (fun m => d2 (qry V c) (key V c) b (rowAt (n + 1) r) m) (by omega) INF _
        (fun l => d2_blk V c ⟨n + 1, h⟩ b r l)
        (fun z => ⟨fun hz => ⟨hz, fun m hm => absurd hm (by omega)⟩, fun hz => hz.1⟩) z
    · rw [outs_B V c ⟨n + 1, h⟩ h0 b r]
      have hr : rowAt n r = rowAt (n + 1) r := Fin.ext (by dsimp only; omega)
      have hc : 512 * (n % 16) + 512 = 512 * ((n + 1) % 16) := by omega
      refine le_min_step 512 ((n + 1) % 16) (fun m => d2 (qry V c) (key V c) b (rowAt (n + 1) r) m) (by omega) _ _
        (fun l => d2_blk V c ⟨n + 1, h⟩ b r l) (fun z => ?_) z
      rw [← hr, ← hc]
      exact ih (Nat.lt_of_succ_lt h) b r z

/-- At the last point of a grid row the entry is the nearest-neighbour value. -/
theorem last_eq (c : Dev nD) (t : Fin cfg0.N) (ht : t.val % 16 = 15) (b : Fin 4) (r : Fin 512) :
    outsAt0 V c t.val t.isLt (ix2 b r) = nnAt (qry V c) (key V c) b (rowAt t.val r) :=
  eq_nnAt_of_le_iff (qry V c) (key V c) b (rowAt t.val r) _ fun z => by
    have e : 512 * (t.val % 16) + 512 = 8192 := by omega
    rw [running V c t.val t.isLt b r z, e]

/-- WHAT A WRITING POINT WRITES BACK is its block of the nearest-neighbour array. -/
theorem flushed_eq (c : Dev nD) (t : Fin cfg0.N) (hf : (cfg0.win 2).flush t = true) :
    (dat0 V c).flushed 2 t = ((cfg0.win 2).blk t).view.read (Elt Ideal) (nn (qry V c) (key V c)) := by
  have ht : t.val % 16 = 15 := (flush0_2 t).mp hf
  obtain ⟨-, -, -, -, -, -, e0, e1⟩ := idx_facts t
  show (cfg0.win 2).cut (grid0.coords t) ((dat0 V c).after 2 t) = _
  rw [after0_2]
  funext y
  obtain ⟨b, r, rfl⟩ : ∃ (b : Fin 4) (r : Fin 512), y = ix2 b r := ⟨y 0, y 1, eq_ix2 y⟩
  show outsAt0 V c t.val t.isLt (ix2 b r) = nn (qry V c) (key V c) (((cfg0.win 2).blk t).view.emb (ix2 b r))
  have hemb : ((cfg0.win 2).blk t).view.emb (ix2 b r) = ix2 b (rowAt t.val r) := by
    funext a; apply Fin.ext
    match a with
    | ⟨0, _⟩ => show win0_2.index t (0 : Fin 2) * 4 + 1 * b.val = b.val; omega
    | ⟨1, _⟩ => show win0_2.index t (1 : Fin 2) * 512 + 1 * r.val = 512 * (t.val / 16 % 16) + r.val; omega
  rw [hemb, nn_ix2]
  exact last_eq V c t ht b r

/-- An index of the array is in point `t`'s block iff each coordinate is in the block's range on its axis. -/
theorem mem_blk (t : Fin cfg0.N) (i : S4x8192.Idx) :
    i ∈ ((cfg0.win 2).blk t).view.set ↔ ∀ a : Fin 2, win0_2.index t a * S4x512.size a ≤ (i a).val ∧ (i a).val < win0_2.index t a * S4x512.size a + S4x512.size a := by
  show i ∈ ((View.whole main_v0).slice (win0_2.rect t)).set ↔ _
  rw [View.set_slice_whole, Rect.mem_set_unit]
  exact Iff.rfl

/-- THE ARRAY after the call: the nearest-neighbour array of the two operand clouds. -/
theorem final (c : Dev nD) : (dat0 V c).arrAt 2 cfg0.N = nn (qry V c) (key V c) :=
  (dat0 V c).arrAt_eq_of_cover 2 (nn (qry V c) (key V c)) (flushed_eq V c) fun i => by
    have hN : cfg0.N = 256 := N_0
    have h0 : (i 0).val < 4 := (i 0).isLt
    have h1 : (i 1).val < 8192 := (i 1).isLt
    let t : Fin cfg0.N := ⟨16 * ((i 1).val / 512) + 15, by omega⟩
    have htv : t.val = 16 * ((i 1).val / 512) + 15 := rfl
    obtain ⟨-, -, -, -, -, -, e0, e1⟩ := idx_facts t
    refine ⟨t, (flush0_2 t).mpr (by omega), ?_⟩
    rw [mem_blk]
    intro a
    match a with
    | ⟨0, _⟩ => show win0_2.index t (0 : Fin 2) * 4 ≤ (i 0).val ∧ (i 0).val < win0_2.index t (0 : Fin 2) * 4 + 4; omega
    | ⟨1, _⟩ => show win0_2.index t (1 : Fin 2) * 512 ≤ (i 1).val ∧ (i 1).val < win0_2.index t (1 : Fin 2) * 512 + 512; omega

end Cert.KernelIdeal.Region0

end
-- ==== Proof.Region1.lean ====
/-
  The second call of the kernel: its result array is the nearest-neighbour array of its two operand clouds.

  The grid is 16 x 16: point `t` works on query block `t / 16` (512 points of the first operand) against key block
  `t % 16` (512 points of the second), and the output block of a grid row is carried from point to point. After point
  `t` its entry for batch `b`, row `r` is the minimum, from the largest value, of the clamped squared distances from
  query point `512 (t / 16) + r` to the key points below `512 (t % 16) + 512` — by induction on the point, through
  the universal property of a minimum: the first point of a row resets, every other point lowers what the point before
  left. At the last point of a row the minimum is over all 8192 key points; those sixteen points are the ones whose
  block is written back, and their blocks tile the array.
-/
import proofs.«101880_j88364657148397_1_alg».proof.Proof.Gen.KernelIdeal.Frame
import proofs.«101880_j88364657148397_1_alg».proof.Proof.Pieces
import proofs.«101880_j88364657148397_1_alg».proof.Proof.Payload
import proofs.«101880_j88364657148397_1_alg».proof.Proof.Spec
import Idealize.ShloMosaic.Lib.Pipeline.Value

set_option maxRecDepth 16384

noncomputable section

namespace Cert.KernelIdeal.Region1

open Idealize.ShloMosaic Idealize.ShloMosaic.TcCoe Idealize.SL.Sem
open Idealize.ShloMosaic.Pipeline (Dat)
open Idealize.ShloMosaic.ValueIdx Chamfer
open Cert.KernelIdeal Cert.KernelIdeal.Gen

variable (V : (c : Dev nD) → (b : Ref sig .tc) → Buf (Elt Ideal) ((c : Thread nD τ).loc b))

/-- The query cloud (the call's first operand) and the key cloud (its second), as the call finds them. -/
abbrev qry (c : Dev nD) : Cloud 8192 := V c main_arg1
abbrev key (c : Dev nD) : Cloud 8192 := V c main_arg0
/-- Their blocks at grid point `t`. -/
abbrev qblk (c : Dev nD) (t : Fin cfg1.N) : Cloud 512 := iblk1 V c 0 t
abbrev kblk (c : Dev nD) (t : Fin cfg1.N) : Cloud 512 := iblk1 V c 1 t

/-- The query point that row `r` of point `n`'s block is, and the key point that column `l` of its block is. -/
abbrev rowAt (n : ℕ) (r : Fin 512) : Fin 8192 := ⟨512 * (n / 16 % 16) + r.val, by have := r.isLt; omega⟩
abbrev colAt (n : ℕ) (l : Fin 512) : Fin 8192 := ⟨512 * (n % 16) + l.val, by have := l.isLt; omega⟩

/-- The printed index maps over the grid: the query window moves with the grid row, the key window with the grid
    column, the output window with the grid row; no window moves along the batch or coordinate axis. -/
theorem idx_facts : ∀ t : Fin cfg1.N,
    win1_0.index t (0 : Fin 3) = 0 ∧ win1_0.index t (1 : Fin 3) = t.val / 16 % 16 ∧ win1_0.index t (2 : Fin 3) = 0
    ∧ win1_1.index t (0 : Fin 3) = 0 ∧ win1_1.index t (1 : Fin 3) = t.val % 16 ∧ win1_1.index t (2 : Fin 3) = 0
    ∧ win1_2.index t (0 : Fin 2) = 0 ∧ win1_2.index t (1 : Fin 2) = t.val / 16 % 16 :=
  (by decide +kernel : ∀ t : Fin grid1.N, _)

/-- The query block at point `t` reads the query cloud at the block's rows. -/
theorem qblk_at (c : Dev nD) (t : Fin cfg1.N) (b : Fin 4) (r : Fin 512) (d : Fin 3) :
    qblk V c t (ix3 b r d) = qry V c (ix3 b (rowAt t.val r) d) := by
  obtain ⟨e0, e1, e2, -⟩ := idx_facts t
  show V c main_arg1 (((cfg1.win 0).blk t).view.emb (ix3 b r d)) = V c main_arg1 (ix3 b (rowAt t.val r) d)
  refine congrArg (V c main_arg1) (funext fun a => Fin.ext ?_)
  match a with
  | ⟨0, _⟩ => show win1_0.index t (0 : Fin 3) * 4 + 1 * b.val = b.val; omega
  | ⟨1, _⟩ => show win1_0.index t (1 : Fin 3) * 512 + 1 * r.val = 512 * (t.val / 16 % 16) + r.val; omega
  | ⟨2, _⟩ => show win1_0.index t (2 : Fin 3) * 3 + 1 * d.val = d.val; omega

/-- The key block at point `t` reads the key cloud at the block's rows. -/
theorem kblk_at (c : Dev nD) (t : Fin cfg1.N) (b : Fin 4) (l : Fin 512) (d : Fin 3) :
    kblk V c t (ix3 b l d) = key V c (ix3 b (colAt t.val l) d) := by
  obtain ⟨-, -, -, e0, e1, e2, -⟩ := idx_facts t
  show V c main_arg0 (((cfg1.win 1).blk t).view.emb (ix3 b l d)) = V c main_arg0 (ix3 b (colAt t.val l) d)
  refine congrArg (V c main_arg0) (funext fun a => Fin.ext ?_)
  match a with
  | ⟨0, _⟩ => show win1_1.index t (0 : Fin 3) * 4 + 1 * b.val = b.val; omega
  | ⟨1, _⟩ => show win1_1.index t (1 : Fin 3) * 512 + 1 * l.val = 512 * (t.val % 16) + l.val; omega
  | ⟨2, _⟩ => show win1_1.index t (2 : Fin 3) * 3 + 1 * d.val = d.val; omega

/-- So a distance between the blocks' points is the distance between the clouds' points. -/
theorem d2_blk (c : Dev nD) (t : Fin cfg1.N) (b : Fin 4) (r l : Fin 512) :
    d2 (qblk V c t) (kblk V c t) b r l = d2 (qry V c) (key V c) b (rowAt t.val r) (colAt t.val l) :=
  d2_of_blocks (qry V c) (key V c) (qblk V c t) (kblk V c t) (512 * (t.val / 16 % 16)) (512 * (t.val % 16)) b r l
    (by have := r.isLt; omega) (by have := l.isLt; omega) (fun d => qblk_at V c t b r d) (fun d => kblk_at V c t b l d)

/-- What the output block holds after a point that starts a grid row, entry by entry. -/
theorem outs_A (c : Dev nD) (t : Fin cfg1.N) (h0 : t.val % 16 = 0) (b : Fin 4) (r : Fin 512) :
    outsAt1 V c t.val t.isLt (ix2 b r)
      = min INF (Finset.univ.fold min INF fun l : Fin 512 => d2 (qblk V c t) (kblk V c t) b r l) := by
  have e : outsAt1 V c t.val t.isLt = k1_pay2 (F := Ideal) (iblk1 V c 0 t) (iblk1 V c 1 t) (k1_pay1 (F := Ideal)) :=
    (outsAt1_A V c t h0).trans (Pieces.out1_A (F := Ideal) c (grid1.coords t) (ms1_0 t) (hs1_0 t) (ms1_1 t) (hs1_1 t)
      (ms1_2 t) (hs1_2 t) ((hcond1_0 t).mpr h0) (iblk1 V c 0 t) (iblk1 V c 1 t))
  exact (congrFun e (ix2 b r)).trans (Payload.pay2'_at (qblk V c t) (kblk V c t) (k1_pay1 (F := Ideal)) b r)

/-- What it holds after any other point, over what the point before left. -/
theorem outs_B (c : Dev nD) (t : Fin cfg1.N) (h0 : ¬t.val % 16 = 0) (b : Fin 4) (r : Fin 512) :
    outsAt1 V c t.val t.isLt (ix2 b r)
      = min (outsAt1 V c (t.val - 1) (Nat.lt_of_le_of_lt (Nat.sub_le _ _) t.isLt) (ix2 b r))
          (Finset.univ.fold min INF fun l : Fin 512 => d2 (qblk V c t) (kblk V c t) b r l) := by
  have e : outsAt1 V c t.val t.isLt = k1_pay2 (F := Ideal) (iblk1 V c 0 t) (iblk1 V c 1 t)
      (outsAt1 V c (t.val - 1) (Nat.lt_of_le_of_lt (Nat.sub_le _ _) t.isLt)) :=
    (outsAt1_B V c t h0).trans (Pieces.out1_B (F := Ideal) c (grid1.coords t) (ms1_0 t) (hs1_0 t) (ms1_1 t) (hs1_1 t)
      (ms1_2 t) (hs1_2 t) (fun h => h0 ((hcond1_0 t).mp h)) (iblk1 V c 0 t) (iblk1 V c 1 t)
      (outsAt1 V c (t.val - 1) (Nat.lt_of_le_of_lt (Nat.sub_le _ _) t.isLt)))
  exact (congrFun e (ix2 b r)).trans (Payload.pay2'_at (qblk V c t) (kblk V c t)
    (outsAt1 V c (t.val - 1) (Nat.lt_of_le_of_lt (Nat.sub_le _ _) t.isLt)) b r)

/-- THE RUNNING MINIMUM. After point `n` the output block's entry (b, r) is the minimum, from the largest value, of
    the distances from query point `rowAt n r` to the key points below `512 (n % 16) + 512`. -/
theorem running (c : Dev nD) : ∀ (n : ℕ) (h : n < cfg1.N) (b : Fin 4) (r : Fin 512) (z : EReal),
    z ≤ outsAt1 V c n h (ix2 b r)
      ↔ z ≤ INF ∧ ∀ m : Fin 8192, m.val < 512 * (n % 16) + 512 → z ≤ d2 (qry V c) (key V c) b (rowAt n r) m := by
  intro n
  induction n with
  | zero =>
    intro h b r z
    rw [outs_A V c ⟨0, h⟩ rfl b r]
    refine le_min_step 512 (0 % 16) (fun m => d2 (qry V c) (key V c) b (rowAt 0 r) m) (by omega) INF _
      (fun l => d2_blk V c ⟨0, h⟩ b r l) (fun z => ⟨fun hz => ⟨hz, fun m hm => absurd hm (by omega)⟩, fun hz => hz.1⟩) z
  | succ n ih =>
    intro h b r z
    by_cases h0 : (n + 1) % 16 = 0
    · rw [outs_A V c ⟨n + 1, h⟩ h0 b r]
      refine le_min_step 512 ((n + 1) % 16) (fun m => d2 (qry V c) (key V c) b (rowAt (n + 1) r) m) (by omega) INF _
        (fun l => d2_blk V c ⟨n + 1, h⟩ b r l)
        (fun z => ⟨fun hz => ⟨hz, fun m hm => absurd hm (by omega)⟩, fun hz => hz.1⟩) z
    · rw [outs_B V c ⟨n + 1, h⟩ h0 b r]
      have hr : rowAt n r = rowAt (n + 1) r := Fin.ext (by dsimp only; omega)
      have hc : 512 * (n % 16) + 512 = 512 * ((n + 1) % 16) := by omega
      refine le_min_step 512 ((n + 1) % 16) (fun m => d2 (qry V c) (key V c) b (rowAt (n + 1) r) m) (by omega) _ _
        (fun l => d2_blk V c ⟨n + 1, h⟩ b r l) (fun z => ?_) z
      rw [← hr, ← hc]
      exact ih (Nat.lt_of_succ_lt h) b r z

/-- At the last point of a grid row the entry is the nearest-neighbour value. -/
theorem last_eq (c : Dev nD) (t : Fin cfg1.N) (ht : t.val % 16 = 15) (b : Fin 4) (r : Fin 512) :
    outsAt1 V c t.val t.isLt (ix2 b r) = nnAt (qry V c) (key V c) b (rowAt t.val r) :=
  eq_nnAt_of_le_iff (qry V c) (key V c) b (rowAt t.val r) _ fun z => by
    have e : 512 * (t.val % 16) + 512 = 8192 := by omega
    rw [running V c t.val t.isLt b r z, e]

/-- WHAT A WRITING POINT WRITES BACK is its block of the nearest-neighbour array. -/
theorem flushed_eq (c : Dev nD) (t : Fin cfg1.N) (hf : (cfg1.win 2).flush t = true) :
    (dat1 V c).flushed 2 t = ((cfg1.win 2).blk t).view.read (Elt Ideal) (nn (qry V c) (key V c)) := by
  have ht : t.val % 16 = 15 := (flush1_2 t).mp hf
  obtain ⟨-, -, -, -, -, -, e0, e1⟩ := idx_facts t
  show (cfg1.win 2).cut (grid1.coords t) ((dat1 V c).after 2 t) = _
  rw [after1_2]
  funext y
  obtain ⟨b, r, rfl⟩ : ∃ (b : Fin 4) (r : Fin 512), y = ix2 b r := ⟨y 0, y 1, eq_ix2 y⟩
  show outsAt1 V c t.val t.isLt (ix2 b r) = nn (qry V c) (key V c) (((cfg1.win 2).blk t).view.emb (ix2 b r))
  have hemb : ((cfg1.win 2).blk t).view.emb (ix2 b r) = ix2 b (rowAt t.val r) := by
    funext a; apply Fin.ext
    match a with
    | ⟨0, _⟩ => show win1_2.index t (0 : Fin 2) * 4 + 1 * b.val = b.val; omega
    | ⟨1, _⟩ => show win1_2.index t (1 : Fin 2) * 512 + 1 * r.val = 512 * (t.val / 16 % 16) + r.val; omega
  rw [hemb, nn_ix2]
  exact last_eq V c t ht b r

/-- An index of the array is in point `t`'s block iff each coordinate is in the block's range on its axis. -/
theorem mem_blk (t : Fin cfg1.N) (i : S4x8192.Idx) :
    i ∈ ((cfg1.win 2).blk t).view.set ↔ ∀ a : Fin 2, win1_2.index t a * S4x512.size a ≤ (i a).val ∧ (i a).val < win1_2.index t a * S4x512.size a + S4x512.size a := by
  show i ∈ ((View.whole main_v1).slice (win1_2.rect t)).set ↔ _
  rw [View.set_slice_whole, Rect.mem_set_unit]
  exact Iff.rfl

/-- THE ARRAY after the call: the nearest-neighbour array of the two operand clouds. -/
theorem final (c : Dev nD) : (dat1 V c).arrAt 2 cfg1.N = nn (qry V c) (key V c) :=
  (dat1 V c).arrAt_eq_of_cover 2 (nn (qry V c) (key V c)) (flushed_eq V c) fun i => by
    have hN : cfg1.N = 256 := N_1
    have h0 : (i 0).val < 4 := (i 0).isLt
    have h1 : (i 1).val < 8192 := (i 1).isLt
    let t : Fin cfg1.N := ⟨16 * ((i 1).val / 512) + 15, by omega⟩
    have htv : t.val = 16 * ((i 1).val / 512) + 15 := rfl
    obtain ⟨-, -, -, -, -, -, e0, e1⟩ := idx_facts t
    refine ⟨t, (flush1_2 t).mpr (by omega), ?_⟩
    rw [mem_blk]
    intro a
    match a with
    | ⟨0, _⟩ => show win1_2.index t (0 : Fin 2) * 4 ≤ (i 0).val ∧ (i 0).val < win1_2.index t (0 : Fin 2) * 4 + 4; omega
    | ⟨1, _⟩ => show win1_2.index t (1 : Fin 2) * 512 ≤ (i 1).val ∧ (i 1).val < win1_2.index t (1 : Fin 2) * 512 + 512; omega

end Cert.KernelIdeal.Region1

end
-- ==== Proof.KValue.lean ====
/-
  The kernel program's result, as one term of its two arguments.

  After the two calls the first result array is the nearest-neighbour array of (first cloud, second cloud) and the
  second that of (second cloud, first cloud): no call writes an argument, and the second call does not touch the
  first call's result. The host operations that follow take each array's mean over the points of a batch and add
  the two means.
-/
import proofs.«101880_j88364657148397_1_alg».proof.Proof.Gen.KernelIdeal.Frame
import proofs.«101880_j88364657148397_1_alg».proof.Proof.Region0
import proofs.«101880_j88364657148397_1_alg».proof.Proof.Region1
import proofs.«101880_j88364657148397_1_alg».proof.Proof.Spec
import Idealize.ShloMosaic.Lib.StableHlo.Run

set_option maxRecDepth 16384

noncomputable section

namespace Cert.KernelIdeal.KValue

open Idealize.ShloMosaic Idealize.ShloMosaic.TcCoe Idealize.SL.Sem
open Idealize.ShloMosaic.Pipeline (Dat)
open Idealize.ShloMosaic.ValueIdx Chamfer
open Cert.KernelIdeal Cert.KernelIdeal.Gen

variable (m : (ℓ : Loc nD τ sig) → Buf (Elt Ideal) ℓ) (ρ : Dev nD → PrngReg)

/-- The two clouds as launched. -/
abbrev cloud0 (c : Dev nD) : Cloud 8192 := m ((c : Thread nD τ).loc main_arg0)
abbrev cloud1 (c : Dev nD) : Cloud 8192 := m ((c : Thread nD τ).loc main_arg1)

/-- The second call finds the arguments as launched: the first call only reads them. -/
theorem V1_arg0 (c : Dev nD) : V1 m ρ c main_arg0 = cloud0 m c :=
  (W1_arr m ρ c 0).trans (((dat0 (V0 m ρ) c).arrAt_in 0 rfl _).trans (A_eq0 (V0 m ρ) c 0))
theorem V1_arg1 (c : Dev nD) : V1 m ρ c main_arg1 = cloud1 m c :=
  (W1_arr m ρ c 1).trans (((dat0 (V0 m ρ) c).arrAt_in 1 rfl _).trans (A_eq0 (V0 m ρ) c 1))

/-- The first call's result array after both calls. -/
theorem W2_v0 (c : Dev nD) : W2 m ρ c (Proc.devRef .tc main_v0) = nn (cloud0 m c) (cloud1 m c) :=
  (W2_of_ne m ρ c main_v0 (fun w => by fin_cases w <;> decide)).trans
    ((W1_arr m ρ c 2).trans (Region0.final (V0 m ρ) c))

/-- The second call's result array. -/
theorem W2_v1 (c : Dev nD) : W2 m ρ c (Proc.devRef .tc main_v1) = nn (cloud1 m c) (cloud0 m c) := by
  refine (W2_arr m ρ c 2).trans ((Region1.final (V1 m ρ) c).trans ?_)
  show nn (V1 m ρ c main_arg1) (V1 m ρ c main_arg0) = _
  rw [V1_arg0, V1_arg1]

/-- The program's result: the two means, added. -/
theorem result_eq (c : Dev nD) : W3 m ρ c (Proc.devRef .tc main_v8)
    = addf (Host.divf (Host.reduceAdd (nn (cloud0 m c) (cloud1 m c)) (constant (F := Ideal) S_ .f32 0x00000000#32) reducesTo_S4x8192_S4_d1 h_S_)
        (broadcastInDim S4 ![] bcast_S_S4 (constant (F := Ideal) S_ .f32 0x46000000#32)))
      (Host.divf (Host.reduceAdd (nn (cloud1 m c) (cloud0 m c)) (constant (F := Ideal) S_ .f32 0x00000000#32) reducesTo_S4x8192_S4_d1 h_S_)
        (broadcastInDim S4 ![] bcast_S_S4 (constant (F := Ideal) S_ .f32 0x46000000#32))) := by
  rw [← W2_v0 m ρ c, ← W2_v1 m ρ c]
  show StableHlo.after hostOps2 (W2 m ρ c) (Proc.devRef .tc main_v8) = _
  after_results

end Cert.KernelIdeal.KValue

end
-- ==== Proof.lean ====
/-
  The certificate: a tiled bidirectional nearest-neighbour distance between two point clouds against its plain
  reference, over the extended reals.

  Both programs compute, for each of four batches, the mean over the first cloud's points of the least clamped squared
  distance to the second cloud, plus the mean over the second cloud's points of the least clamped squared distance to the
  first, the squared distance in the expanded form |a|² + |b|² - 2 (a · b) clamped below at zero. The reference forms
  the whole 8192 x 8192 distance array once and takes its minimum along either axis; the kernel never forms it: two calls
  of one tiled body, the clouds exchanged between them, each keep a running minimum per query point over blocks of 512
  key points. The two agree because a minimum taken block by block is the minimum (its universal property), and the
  second call's distances are the first's with the clouds exchanged: commutativity of + and * on the extended reals,
  no finiteness needed. The format change before the inner product is the identity at this instance, and the ideal
  pass rewrote nothing.

  Modules: Spec (the mathematics), RefValue (the reference's two minima are the specification's), Payload (one grid
  point's stored value at an entry), Pieces (what each control case of the body leaves), Region0 / Region1 (each
  call's result array), RunNamed (the kernel program's run with its result named), KValue (the kernel program's
  result as one term of the arguments); the claims below.
-/
import proofs.«101880_j88364657148397_1_alg».proof.Defs
import proofs.«101880_j88364657148397_1_alg».proof.Proof.Gen.Kernel
import proofs.«101880_j88364657148397_1_alg».proof.Proof.Gen.Kernel.Frame
import proofs.«101880_j88364657148397_1_alg».proof.Proof.Gen.KernelIdeal
import proofs.«101880_j88364657148397_1_alg».proof.Proof.Gen.KernelIdeal.Frame
import proofs.«101880_j88364657148397_1_alg».proof.Proof.Gen.ReferenceIdeal
import proofs.«101880_j88364657148397_1_alg».proof.Proof.Gen.ReferenceIdeal.Run
import proofs.«101880_j88364657148397_1_alg».proof.Proof.Gen.ReferenceIdeal.Read
import proofs.«101880_j88364657148397_1_alg».proof.Proof.Gen.Pre_finite_inputs
import proofs.«101880_j88364657148397_1_alg».proof.Proof.RefValue
import proofs.«101880_j88364657148397_1_alg».proof.Proof.RunNamed
import proofs.«101880_j88364657148397_1_alg».proof.Proof.KValue
import Idealize.ShloMosaic.Adequacy
import Idealize.ShloMosaic.Init

noncomputable section

namespace Cert.Proof

open Idealize.ShloMosaic Idealize.ShloMosaic.TcCoe Idealize.SL.Sem Chamfer

/-- The reference's result: the same two means over the specification's two arrays. -/
theorem ref_result_eq (x0 x1 : Cloud 8192) : Cert.ReferenceIdeal.Read.val_main_v23 (F := Ideal) x0 x1
    = addf (Host.divf (Host.reduceAdd (nn x0 x1) (constant (F := Ideal) Cert.ReferenceIdeal.S_ .f32 0x00000000#32)
          Cert.ReferenceIdeal.Facts₀.reducesTo_S4x8192_S4_d1 Cert.ReferenceIdeal.Facts₀.h_S_)
        (broadcastInDim Cert.ReferenceIdeal.S4 ![] Cert.ReferenceIdeal.Facts₀.bcast_S_S4
          (constant (F := Ideal) Cert.ReferenceIdeal.S_ .f32 0x46000000#32)))
      (Host.divf (Host.reduceAdd (nn x1 x0) (constant (F := Ideal) Cert.ReferenceIdeal.S_ .f32 0x00000000#32)
          Cert.ReferenceIdeal.Facts₀.reducesTo_S4x8192_S4_d1 Cert.ReferenceIdeal.Facts₀.h_S_)
        (broadcastInDim Cert.ReferenceIdeal.S4 ![] Cert.ReferenceIdeal.Facts₀.bcast_S_S4
          (constant (F := Ideal) Cert.ReferenceIdeal.S_ .f32 0x46000000#32))) := by
  rw [← Cert.ReferenceIdeal.RefValue.v15_eq x0 x1, ← Cert.ReferenceIdeal.RefValue.v19_eq x0 x1]
  rfl

theorem frame_k : Cert.frame_Kernel := fun m ρ _ => Cert.Kernel.Gen.frame m ρ
theorem frame_ki : Cert.frame_KernelIdeal := fun m ρ _ => Cert.KernelIdeal.Gen.frame m ρ
theorem frame_ri : Cert.frame_ReferenceIdeal := fun m ρ _ =>
  (θ_run Cert.ReferenceIdeal.defs _ _).mono (fun _ h c => (h c).2) (Cert.ReferenceIdeal.Value.run (F := Ideal) m ρ)

/-- The ideal pass rewrote no operation. -/
theorem preserves : Cert.preserves_Kernel_KernelIdeal := trivial

/-- From memories agreeing on the two clouds both programs end at the same two means, added: the kernel's two result
    arrays and the reference's two minima are the specification's nearest-neighbour arrays, and the host operations
    after them are the same. -/
theorem algebraic : Cert.algebraic_KernelIdeal_ReferenceIdeal := by
  intro m ρ m' ρ' _ hagree
  refine ⟨fun c => Cert.KernelIdeal.Gen.W3 m ρ c (Proc.devRef .tc Cert.KernelIdeal.main_v8),
    Cert.KernelIdeal.Named.run_named (F := Ideal) m ρ, ?_⟩
  refine (θ_run Cert.ReferenceIdeal.defs _ _).mono (fun _ h c => ⟨(h c).1.trans ?_, (h c).2⟩)
    (Cert.ReferenceIdeal.Value.run (F := Ideal) m' ρ')
  refine (Cert.ReferenceIdeal.Read.val_main_v23_eq (F := Ideal) _ _).trans ((ref_result_eq _ _).trans ?_)
  rw [(hagree c).1, (hagree c).2]
  exact (Cert.KernelIdeal.KValue.result_eq m ρ c).symm

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
